-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x11008 : Shape := ⟨2, ![4096, 11008]⟩
abbrev S64x11008 : Shape := ⟨2, ![64, 11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S64x11008 : S_.BroadcastsInDim S64x11008 (![] : Fin 0 → Fin S64x11008.rank)
  reducesTo_S64x11008_S_d0_1 : S64x11008.ReducesTo [0, 1] S_

variable [Facts]

def fn {F : FTy → Type} [FloatOps F] (main_arg0 : FVec F S64x4096 .f32) (main_arg1 : IVec S4096x11008 32) (main_arg2 : FVec F S64x11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x11008 .f32 := Host.absf main_arg2
  let main_cst_0 : FVec F S_ .f32 := constant S_ .f32 0x7F800000#32
  let main_v5 : FVec F S64x11008 .f32 := broadcastInDim S64x11008 ![] bcast_S_S64x11008 main_cst_0
  let main_v6 : IVec S64x11008 1 := cmpf .olt main_v4 main_v5
  let main_c_1 : IVec S_ 1 := constantI S_ 1 1#1
  let main_v7 : IVec S_ 1 := (fun x v => Host.reduce IntOp.andi x v reducesTo_S64x11008_S_d0_1 h_S_) main_v6 main_c_1
  let main_v8 : IVec S_ 1 := andi main_v3 main_v7
  main_v8
-- ==== Kernel.lean ====
abbrev S64x4096 : Shape := ⟨2, ![64, 4096]⟩
abbrev S4096x11008 : Shape := ⟨2, ![4096, 11008]⟩
abbrev S64x11008 : Shape := ⟨2, ![64, 11008]⟩
abbrev S4096x512 : Shape := ⟨2, ![4096, 512]⟩
abbrev S64x512 : Shape := ⟨2, ![64, 512]⟩
abbrev S64x64x512 : Shape := ⟨3, ![64, 64, 512]⟩
abbrev S64x1x512 : Shape := ⟨3, ![64, 1, 512]⟩

abbrev nBuf : Space → Nat
  | .hbm => 4
  | .vmem => 7
  | .smem => 0
  | _ => 0

abbrev bufTy : (tb : Table) → Fin (tcTables nBuf tb) → BufTy
  | .hbm, ⟨0, _⟩ => ⟨S64x4096, .f32⟩
  | .hbm, ⟨1, _⟩ => ⟨S4096x11008, .i32⟩
  | .hbm, ⟨2, _⟩ => ⟨S64x11008, .f32⟩
  | .hbm, ⟨3, _⟩ => ⟨S64x11008, .f32⟩
  | .local _ .vmem, ⟨0, _⟩ => ⟨S64x4096, .f32⟩
  | .local _ .vmem, ⟨1, _⟩ => ⟨S4096x512, .i32⟩
  | .local _ .vmem, ⟨2, _⟩ => ⟨S4096x512, .i32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S64x512_S64x512_0_0 : ∀ a, (![0, 0] : Fin 2 → Nat) a + S64x512.size a ≤ S64x512.size a
  h_S64x512 : 0 < S64x512.numel
  shapeCasts_S4096x512_S64x64x512 : S4096x512.ShapeCasts S64x64x512
  shapeCasts_S64x512_S64x1x512 : S64x512.ShapeCasts S64x1x512
  broadcasts_S64x1x512_S64x64x512 : S64x1x512.Broadcasts S64x64x512
  shapeCasts_S64x64x512_S4096x512 : S64x64x512.ShapeCasts S4096x512
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x512.size a < S4096x11008.size a
  hwx0_1 : ∀ i : grid0.Coords, EltTy.bits .i32 = 32 ∨ (Rect.unit (s := S4096x11008) (fun a => cc0_transform_1 i a * S4096x512.size a) (fun a => (Pipeline.Clip.of (cc0_transform_1 i a) (S4096x512.size a) (S4096x11008.size a)).extent (S4096x512.size a)) fun a => Pipeline.Clip.inb (Pipeline.Clip.ok_of (hstart0_1 i a))).WholeWords (EltTy.packing .i32)
  hwxs0_1 : ∀ i : grid0.Coords, EltTy.bits .i32 = 32 ∨ (Rect.unit (s := S4096x512) (fun _ => 0) (fun a => (Pipeline.Clip.of (cc0_transform_1 i a) (S4096x512.size a) (S4096x11008.size a)).extent (S4096x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x512.size a < S64x11008.size a
  hwx0_2 : ∀ i : grid0.Coords, EltTy.bits .f32 = 32 ∨ (Rect.unit (s := S64x11008) (fun a => cc0_transform_2 i a * S64x512.size a) (fun a => (Pipeline.Clip.of (cc0_transform_2 i a) (S64x512.size a) (S64x11008.size a)).extent (S64x512.size a)) fun a => Pipeline.Clip.inb (Pipeline.Clip.ok_of (hstart0_2 i a))).WholeWords (EltTy.packing .f32)
  hwxs0_2 : ∀ i : grid0.Coords, EltTy.bits .f32 = 32 ∨ (Rect.unit (s := S64x512) (fun _ => 0) (fun a => (Pipeline.Clip.of (cc0_transform_2 i a) (S64x512.size a) (S64x11008.size a)).extent (S64x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x512.size a < S64x11008.size a
  hwx0_3 : ∀ i : grid0.Coords, EltTy.bits .f32 = 32 ∨ (Rect.unit (s := S64x11008) (fun a => cc0_transform_3 i a * S64x512.size a) (fun a => (Pipeline.Clip.of (cc0_transform_3 i a) (S64x512.size a) (S64x11008.size a)).extent (S64x512.size a)) fun a => Pipeline.Clip.inb (Pipeline.Clip.ok_of (hstart0_3 i a))).WholeWords (EltTy.packing .f32)
  hwxs0_3 : ∀ i : grid0.Coords, EltTy.bits .f32 = 32 ∨ (Rect.unit (s := S64x512) (fun _ => 0) (fun a => (Pipeline.Clip.of (cc0_transform_3 i a) (S64x512.size a) (S64x11008.size a)).extent (S64x512.size a)) fun a => (Nat.zero_add _).trans_le (Pipeline.Clip.extent_le (Pipeline.Clip.ok_of (hstart0_3 i a)))).WholeWords (EltTy.packing .f32)

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S64x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S64x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x11008 : Shape := ⟨2, ![4096, 11008]⟩
abbrev S64x11008 : Shape := ⟨2, ![64, 11008]⟩
abbrev S_ : Shape := ⟨0, ![]⟩
abbrev S64x64x11008 : Shape := ⟨3, ![64, 64, 11008]⟩
abbrev S64x1x11008 : Shape := ⟨3, ![64, 1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x11008, .i32⟩
  | .hbm, ⟨2, _⟩ => ⟨S64x11008, .f32⟩
  | .hbm, ⟨3, _⟩ => ⟨S_, .i32⟩
  | .hbm, ⟨4, _⟩ => ⟨S4096x11008, .i32⟩
  | .hbm, ⟨5, _⟩ => ⟨S4096x11008, .i32⟩
  | .hbm, ⟨6, _⟩ => ⟨S4096x11008, .f32⟩
  | .hbm, ⟨7, _⟩ => ⟨S64x64x11008, .f32⟩
  | .hbm, ⟨8, _⟩ => ⟨S64x1x11008, .f32⟩
  | .hbm, ⟨9, _⟩ => ⟨S64x64x11008, .f32⟩
  | .hbm, ⟨10, _⟩ => ⟨S64x64x11008, .f32⟩
  | .hbm, ⟨11, _⟩ => ⟨S4096x11008, .f32⟩
  | .hbm, ⟨12, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  shapeCasts_S4096x11008_S64x64x11008 : S4096x11008.ShapeCasts S64x64x11008
  bcast_S64x11008_S64x1x11008_0_2 : S64x11008.BroadcastsInDim S64x1x11008 (![0, 2] : Fin 2 → Fin S64x1x11008.rank)
  bcast_S64x1x11008_S64x64x11008_0_1_2 : S64x1x11008.BroadcastsInDim S64x64x11008 (![0, 1, 2] : Fin 3 → Fin S64x64x11008.rank)
  shapeCasts_S64x64x11008_S4096x11008 : S64x64x11008.ShapeCasts S4096x11008
  dot_S64x4096_S4096x11008_S64x11008_1_0_0_1_n_n_wf : DotDims.WF S64x4096 S4096x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.KBody.lean ====
/-
  The kernel body, run once.

  At a grid point the body is handed four whole staging buffers: the left factor (64 × 4096), a slab of integer
  codes (4096 × 512), a slab of per-group scales (64 × 512) and the result's buffer (64 × 512). It loads the first
  three whole, computes ONE value from them — the product of the left factor with the dequantized slab — and stores
  that value over the whole result buffer (it also loads the result buffer once and never uses what it read). So
  whatever the four buffers hold when the body starts, it ends with the first three unchanged and the fourth holding
  that one value of the first three. Nothing here depends on what the contents are, nor on how floats are read.
-/
import proofs.«153262_j83356725281468_1_alg».proof.Proof.Gen.Kernel.Frame
import proofs.«153262_j83356725281468_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole of each buffer, as the body addresses it: offsets zero, the buffer's own sizes. -/
abbrev wholeA : Rect S64x4096 := Rect.unit (s := S64x4096) ![0, 0] S64x4096.size inb_S64x4096_S64x4096_0_0
abbrev wholeQ : Rect S4096x512 := Rect.unit (s := S4096x512) ![0, 0] S4096x512.size inb_S4096x512_S4096x512_0_0
abbrev wholeO : Rect S64x512 := Rect.unit (s := S64x512) ![0, 0] S64x512.size inb_S64x512_S64x512_0_0

theorem offsets_zero : (![0, 0] : Fin 2 → Nat) = fun _ => 0 := funext fun a => by fin_cases a <;> rfl

/-- What the result buffer holds after the body: its one store, over what the three loads read. -/
def stored (a : Vec F S64x4096 .f32) (q : Vec F S4096x512 .i32) (s : Vec F S64x512 .f32) : Vec F S64x512 .f32 :=
  View.canon [⟨wholeO, k0_pay1 (View.ld a wholeA) (View.ld q wholeQ) (View.ld s wholeO)⟩]

/-- Loads and store are of whole buffers, so that is the body's value of the three contents themselves. -/
theorem stored_eq (a : Vec F S64x4096 .f32) (q : Vec F S4096x512 .i32) (s : Vec F S64x512 .f32) :
    stored a q s = k0_pay1 a q s := by
  unfold stored
  rw [View.canon_unit_zero offsets_zero]
  simp only [View.ld_unit_zero (S := S64x4096) offsets_zero, View.ld_unit_zero (S := S4096x512) offsets_zero,
    View.ld_unit_zero (S := S64x512) offsets_zero]

set_option maxHeartbeats 1000000 in
/-- The body on whole buffers holding `a`, `q`, `s` and anything: it runs, and hands the continuation the first
    three as they were and the fourth at `stored a q s`. -/
theorem sound_kernel (c : Dev nD) (E : Set ℕ) (i : grid0.Coords)
    (arg1 : Memref sig .tc .vmem S64x4096 .f32) (harg1 : arg1.IsWhole)
    (arg2 : Memref sig .tc .vmem S4096x512 .i32) (harg2 : arg2.IsWhole)
    (arg3 : Memref sig .tc .vmem S64x512 .f32) (harg3 : arg3.IsWhole)
    (arg4 : Memref sig .tc .vmem S64x512 .f32) (harg4 : arg4.IsWhole)
    (a : Vec F S64x4096 .f32) (q : Vec F S4096x512 .i32) (s : Vec F S64x512 .f32) (K : PUnit → sProp 𝕄) :
    iprop(owns (c : Thread nD τ) arg1 fullShare a ∗ owns (c : Thread nD τ) arg2 fullShare q
        ∗ owns (c : Thread nD τ) arg3 fullShare s ∗ (∃ d, owns (c : Thread nD τ) arg4 fullShare d)
        ∗ (iprop(owns (c : Thread nD τ) arg1 fullShare a ∗ owns (c : Thread nD τ) arg2 fullShare q
              ∗ owns (c : Thread nD τ) arg3 fullShare s ∗ owns (c : Thread nD τ) arg4 fullShare (stored a q s)) -∗ K ⟨⟩))
      ⊢ wp frame (wpE (defs₀ (F := F)) Variants.none c none) E
          (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _
    (fun y => ⟨_, List.mem_singleton_self _, View.mem_set_unit_zero offsets_zero inb_S64x512_S64x512_0_0 y⟩)

end Cert.Kernel.Body

end
-- ==== Proof.KFrame.lean ====
/-
  The kernel's frame, at any reading of the floats.

  For the frame nothing needs to be known of what the staging buffers hold: the body loads whole buffers, computes,
  and stores a whole buffer, whatever the contents, and no address, branch or trip count depends on a loaded value. So
  every window is handed to the body at SOME contents and taken back at SOME contents. The library's frame run for
  such proof data says of each input array that it ends at its launch contents, which is the claim; of the result
  array it says only that it was overwritten block by block, and the claim does not speak of it.
-/
import proofs.«153262_j83356725281468_1_alg».proof.Proof.KBody

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched; what the body leaves is not named (every window is forgotten below). -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window forgotten. -/
abbrev allForgotten : Fin cfg0.W → Bool := fun _ => true

/-- The body at point `t`, each buffer at some contents before and after. -/
theorem sound_body (c : Dev nD) (t : Fin cfg0.N) :
    iprop((dats m 0 c).Φ t.castSucc ∗ (dats m 0 c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X))
      ⊢ wp frame (wpE (defs₀ (F := F)) Variants.none c none) Set.univ (bodyAt0 t) (fun _ =>
          iprop((dats m 0 c).Φ t.succ ∗ (dats m 0 c).owesAt () t.succ
            ∗ (∃ X, owns (c : Thread nD τ) (st0_0 t) fullShare X) ∗ (∃ X, owns (c : Thread nD τ) (st0_1 t) fullShare X)
            ∗ (∃ X, owns (c : Thread nD τ) (st0_2 t) fullShare X) ∗ (∃ X, owns (c : Thread nD τ) (st0_3 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩⟩
  iapply (sound_kernel (F := F) c Set.univ (grid0.coords t) _ _ _ _ _ _ _ _ X0 X1 X2 _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

theorem body_obligation (c : Dev nD) :
    BodyObligationLoose (dats m 0 c) (defs₀ (F := F)) Variants.none () Set.univ allForgotten := fun t => by
  simp only [bigSep_W0]
  exact sound_body m c t

set_option backward.isDefEq.respectTransparency.types false in
/-- Every weakly fair execution of @main terminates, and every final state has each input array at its launch
    contents (the relational frame post, all windows forgotten). -/
theorem run_main : θ_run defs (onTc (τ := τ) (main (F := F))) (s₀ m ρ)
    (RDat.FramePost cfg0 (fun c => (dats m 0 c).toRForget allForgotten) (V m)) :=
  Pipeline.RDat.θ_run_frame cfgs (0 : Fin 1) launch0 defs₀ Variants.none (fun c => (dats m 0 c).toRForget allForgotten) m ρ main
    (hbody := fun c => (body_obligation m c).toRForget)
    (hshare := fun c w => (dats m 0 c).share_full (fun _ => rfl) w)
    (howed := fun _ _ => rfl) (V := V m) (hmain := hmain m Variants.none) (hA := fun _ _ => rfl) (hΦ := fun _ _ => rfl)

/-- The three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(RDat.FramePost.arr_in h c 0 rfl).trans (V_main_arg0 m c),
      (RDat.FramePost.arr_in h c 1 rfl).trans (V_main_arg1 m c),
      (RDat.FramePost.arr_in h c 2 rfl).trans (V_main_arg2 m c)⟩) (run_main m ρ)

end Cert.Kernel.Run

end
-- ==== Proof.KIBody.lean ====
/-
  The kernel body, run once.

  At a grid point the body is handed four whole staging buffers: the left factor (64 × 4096), a slab of integer
  codes (4096 × 512), a slab of per-group scales (64 × 512) and the result's buffer (64 × 512). It loads the first
  three whole, computes ONE value from them — the product of the left factor with the dequantized slab — and stores
  that value over the whole result buffer (it also loads the result buffer once and never uses what it read). So
  whatever the four buffers hold when the body starts, it ends with the first three unchanged and the fourth holding
  that one value of the first three. Nothing here depends on what the contents are, nor on how floats are read.
-/
import proofs.«153262_j83356725281468_1_alg».proof.Proof.Gen.KernelIdeal.Frame
import proofs.«153262_j83356725281468_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole of each buffer, as the body addresses it: offsets zero, the buffer's own sizes. -/
abbrev wholeA : Rect S64x4096 := Rect.unit (s := S64x4096) ![0, 0] S64x4096.size inb_S64x4096_S64x4096_0_0
abbrev wholeQ : Rect S4096x512 := Rect.unit (s := S4096x512) ![0, 0] S4096x512.size inb_S4096x512_S4096x512_0_0
abbrev wholeO : Rect S64x512 := Rect.unit (s := S64x512) ![0, 0] S64x512.size inb_S64x512_S64x512_0_0

theorem offsets_zero : (![0, 0] : Fin 2 → Nat) = fun _ => 0 := funext fun a => by fin_cases a <;> rfl

/-- What the result buffer holds after the body: its one store, over what the three loads read. -/
def stored (a : Vec F S64x4096 .f32) (q : Vec F S4096x512 .i32) (s : Vec F S64x512 .f32) : Vec F S64x512 .f32 :=
  View.canon [⟨wholeO, k0_pay1 (View.ld a wholeA) (View.ld q wholeQ) (View.ld s wholeO)⟩]

/-- Loads and store are of whole buffers, so that is the body's value of the three contents themselves. -/
theorem stored_eq (a : Vec F S64x4096 .f32) (q : Vec F S4096x512 .i32) (s : Vec F S64x512 .f32) :
    stored a q s = k0_pay1 a q s := by
  unfold stored
  rw [View.canon_unit_zero offsets_zero]
  simp only [View.ld_unit_zero (S := S64x4096) offsets_zero, View.ld_unit_zero (S := S4096x512) offsets_zero,
    View.ld_unit_zero (S := S64x512) offsets_zero]

set_option maxHeartbeats 1000000 in
/-- The body on whole buffers holding `a`, `q`, `s` and anything: it runs, and hands the continuation the first
    three as they were and the fourth at `stored a q s`. -/
theorem sound_kernel (c : Dev nD) (E : Set ℕ) (i : grid0.Coords)
    (arg1 : Memref sig .tc .vmem S64x4096 .f32) (harg1 : arg1.IsWhole)
    (arg2 : Memref sig .tc .vmem S4096x512 .i32) (harg2 : arg2.IsWhole)
    (arg3 : Memref sig .tc .vmem S64x512 .f32) (harg3 : arg3.IsWhole)
    (arg4 : Memref sig .tc .vmem S64x512 .f32) (harg4 : arg4.IsWhole)
    (a : Vec F S64x4096 .f32) (q : Vec F S4096x512 .i32) (s : Vec F S64x512 .f32) (K : PUnit → sProp 𝕄) :
    iprop(owns (c : Thread nD τ) arg1 fullShare a ∗ owns (c : Thread nD τ) arg2 fullShare q
        ∗ owns (c : Thread nD τ) arg3 fullShare s ∗ (∃ d, owns (c : Thread nD τ) arg4 fullShare d)
        ∗ (iprop(owns (c : Thread nD τ) arg1 fullShare a ∗ owns (c : Thread nD τ) arg2 fullShare q
              ∗ owns (c : Thread nD τ) arg3 fullShare s ∗ owns (c : Thread nD τ) arg4 fullShare (stored a q s)) -∗ K ⟨⟩))
      ⊢ wp frame (wpE (defs₀ (F := F)) Variants.none c none) E
          (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _
    (fun y => ⟨_, List.mem_singleton_self _, View.mem_set_unit_zero offsets_zero inb_S64x512_S64x512_0_0 y⟩)

end Cert.KernelIdeal.Body

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibGroupScale.lean ====
/-
  Group-wise scaling of a tall array, read at an entry; and the product it feeds.

  A `4096 × N` array is cut into 64 groups of 64 consecutive rows (row `k` is row `k % 64` of group `k / 64`), each
  group is multiplied, entry by entry, by ITS row of a `64 × N` array of scales, and the groups are put back as
  `4096 × N`. Read at entry `(k, n)` the result is `x (k, n) · s (k / 64, n)`: the two reshapes and the broadcast only
  say WHICH entry of each operand is read. The broadcast of the scales comes in two spellings — a reshape to
  `64 × 1 × N` followed by a broadcast along the middle axis, or two `broadcast_in_dim`s — and both read the same
  entry. All of it holds for any `N` and any entry type with a product.

  The integer codes enter as `code q = (q − 4)` read as a real number, so that the scaled array is the WEIGHT
  `weight q s k n = code (q (k, n)) · s (k / 64, n)`, and the product of a `64 × 4096` array with it is, at `(p, n)`,
  `∑ k, A (p, k) · weight q s k n`: column `n` of the product reads column `n` of the codes and of the scales and no other.
-/
import Idealize.ShloMosaic.PureOps.Ideal.Laws
import Idealize.ShloMosaic.Lib.ValueIdx
import Idealize.ShloMosaic.Lib.Pipeline.Value

noncomputable section

namespace Cert.GroupScale

open Idealize.ShloMosaic Idealize.ShloMosaic.ValueIdx

variable {N : ℕ} {α : Type}

/-- The group of row `k`, and its place in the group. -/
abbrev grp (k : Fin 4096) : Fin 64 := ⟨k.val / 64, by have := k.isLt; omega⟩
abbrev pos (k : Fin 4096) : Fin 64 := ⟨k.val % 64, Nat.mod_lt _ (by decide)⟩
/-- Row `g` of group `G`. -/
abbrev row (G g : Fin 64) : Fin 4096 := ⟨G.val * 64 + g.val, by have := G.isLt; have := g.isLt; omega⟩

theorem row_grp_pos (k : Fin 4096) : row (grp k) (pos k) = k := Fin.ext (Nat.div_add_mod' k.val 64)

/-- `4096 × N` seen as `64 × 64 × N`: entry `(G, g, n)` is entry `(64 G + g, n)`. -/
theorem split_apply (x : (⟨2, ![4096, N]⟩ : Shape).Idx → α) (h : (⟨2, ![4096, N]⟩ : Shape).ShapeCasts ⟨3, ![64, 64, N]⟩)
    (G g : Fin 64) (n : Fin N) : shapeCast ⟨3, ![64, 64, N]⟩ x h (ix3 G g n) = x (ix2 (row G g) n) :=
  shapeCast_apply x h _ _ (by
    rw [Shape.rowMajor_val_two, Shape.rowMajor_val_three]
    show (G.val * 64 + g.val) * N + n.val = (G.val * 64 + g.val) * N + n.val
    rfl)

/-- `64 × 64 × N` seen as `4096 × N`: entry `(k, n)` is entry `(k / 64, k % 64, n)`. -/
theorem merge_apply (y : (⟨3, ![64, 64, N]⟩ : Shape).Idx → α) (h : (⟨3, ![64, 64, N]⟩ : Shape).ShapeCasts ⟨2, ![4096, N]⟩)
    (k : Fin 4096) (n : Fin N) : shapeCast ⟨2, ![4096, N]⟩ y h (ix2 k n) = y (ix3 (grp k) (pos k) n) :=
  shapeCast_apply y h _ _ (by
    rw [Shape.rowMajor_val_two, Shape.rowMajor_val_three]
    show (k.val / 64 * 64 + k.val % 64) * N + n.val = k.val * N + n.val
    rw [Nat.div_add_mod' k.val 64])

/-- `64 × N` seen as `64 × 1 × N`. -/
theorem unit_apply (s : (⟨2, ![64, N]⟩ : Shape).Idx → α) (h : (⟨2, ![64, N]⟩ : Shape).ShapeCasts ⟨3, ![64, 1, N]⟩)
    (G : Fin 64) (u : Fin 1) (n : Fin N) : shapeCast ⟨3, ![64, 1, N]⟩ s h (ix3 G u n) = s (ix2 G n) :=
  shapeCast_apply s h _ _ (by
    have hu : u.val = 0 := by omega
    rw [Shape.rowMajor_val_two, Shape.rowMajor_val_three]
    show G.val * N + n.val = (G.val * 1 + u.val) * N + n.val
    rw [hu, Nat.mul_one, Nat.add_zero])

/-- `64 × 1 × N` repeated along the middle axis. -/
theorem repeat_apply (v : (⟨3, ![64, 1, N]⟩ : Shape).Idx → α) (h : (⟨3, ![64, 1, N]⟩ : Shape).Broadcasts ⟨3, ![64, 64, N]⟩)
    (hN : N ≠ 1) (G g : Fin 64) (n : Fin N) : broadcastTo ⟨3, ![64, 64, N]⟩ v h (ix3 G g n) = v (ix3 G (0 : Fin 1) n) :=
  broadcastTo_apply v h _ _ fun a => match a with
    | ⟨0, _⟩ => by show G.val = if (64 : ℕ) = 1 then 0 else G.val; rw [if_neg (by decide)]
    | ⟨1, _⟩ => by show (0 : ℕ) = if (1 : ℕ) = 1 then 0 else g.val; rw [if_pos rfl]
    | ⟨2, _⟩ => by show n.val = if N = 1 then 0 else n.val; rw [if_neg hN]

/-- The same two steps spelt as `broadcast_in_dim`s. -/
theorem unit_inDim_apply (s : (⟨2, ![64, N]⟩ : Shape).Idx → α)
    (h : (⟨2, ![64, N]⟩ : Shape).BroadcastsInDim ⟨3, ![64, 1, N]⟩ ![0, 2]) (hN : N ≠ 1)
    (G : Fin 64) (u : Fin 1) (n : Fin N) : broadcastInDim ⟨3, ![64, 1, N]⟩ ![0, 2] h s (ix3 G u n) = s (ix2 G n) :=
  broadcastInDim_apply _ h s _ _ fun a => match a with
    | ⟨0, _⟩ => by show G.val = if (64 : ℕ) = 1 then 0 else G.val; rw [if_neg (by decide)]
    | ⟨1, _⟩ => by show n.val = if N = 1 then 0 else n.val; rw [if_neg hN]

theorem repeat_inDim_apply (v : (⟨3, ![64, 1, N]⟩ : Shape).Idx → α)
    (h : (⟨3, ![64, 1, N]⟩ : Shape).BroadcastsInDim ⟨3, ![64, 64, N]⟩ ![0, 1, 2]) (hN : N ≠ 1)
    (G g : Fin 64) (n : Fin N) : broadcastInDim ⟨3, ![64, 64, N]⟩ ![0, 1, 2] h v (ix3 G g n) = v (ix3 G (0 : Fin 1) n) :=
  broadcastInDim_apply _ h v _ _ fun a => match a with
    | ⟨0, _⟩ => by show G.val = if (64 : ℕ) = 1 then 0 else G.val; rw [if_neg (by decide)]
    | ⟨1, _⟩ => by show (0 : ℕ) = if (1 : ℕ) = 1 then 0 else g.val; rw [if_pos rfl]
    | ⟨2, _⟩ => by show n.val = if N = 1 then 0 else n.val; rw [if_neg hN]

/-! ## The weight and the product -/

/-- A code read as a number: `q − 4`, signed, exactly. -/
def code (q : BitVec 32) : EReal := FloatOps.sitofp (F := Ideal) .f32 (IntOp.subi q 4#32)

/-- The dequantized weight at `(k, n)`. -/
def weight (q : (⟨2, ![4096, N]⟩ : Shape).Idx → BitVec 32) (s : (⟨2, ![64, N]⟩ : Shape).Idx → EReal)
    (k : Fin 4096) (n : Fin N) : EReal := code (q (ix2 k n)) * s (ix2 (grp k) n)

/-- The product with the weight at `(p, n)`. -/
def product (A : (⟨2, ![64, 4096]⟩ : Shape).Idx → EReal) (q : (⟨2, ![4096, N]⟩ : Shape).Idx → BitVec 32)
    (s : (⟨2, ![64, N]⟩ : Shape).Idx → EReal) (p : Fin 64) (n : Fin N) : EReal :=
  ∑ k : Fin 4096, A (ix2 p k) * weight q s k n

/-- The product as an array. -/
def productArr (A : (⟨2, ![64, 4096]⟩ : Shape).Idx → EReal) (q : (⟨2, ![4096, N]⟩ : Shape).Idx → BitVec 32)
    (s : (⟨2, ![64, N]⟩ : Shape).Idx → EReal) : (⟨2, ![64, N]⟩ : Shape).Idx → EReal :=
  fun j => product A q s (j 0) (j 1)

theorem productArr_apply (A : (⟨2, ![64, 4096]⟩ : Shape).Idx → EReal) (q : (⟨2, ![4096, N]⟩ : Shape).Idx → BitVec 32)
    (s : (⟨2, ![64, N]⟩ : Shape).Idx → EReal) (p : Fin 64) (n : Fin N) :
    productArr A q s (ix2 p n) = product A q s p n := rfl

/-- Entry `(p, n)` of the product reads row `p` of the left factor and column `n` of the codes and of the scales, and
    nothing else: two triples of arrays that agree on that row and that column give the same product there (the
    arrays may have different widths: `n` and `n'` name the column in each, `p` and `p'` the row). -/
theorem product_congr {N' : ℕ} (A A' : (⟨2, ![64, 4096]⟩ : Shape).Idx → EReal)
    (q : (⟨2, ![4096, N]⟩ : Shape).Idx → BitVec 32) (s : (⟨2, ![64, N]⟩ : Shape).Idx → EReal)
    (q' : (⟨2, ![4096, N']⟩ : Shape).Idx → BitVec 32) (s' : (⟨2, ![64, N']⟩ : Shape).Idx → EReal)
    (p p' : Fin 64) (n : Fin N) (n' : Fin N')
    (hA : ∀ k : Fin 4096, A (ix2 p k) = A' (ix2 p' k))
    (hq : ∀ k : Fin 4096, q (ix2 k n) = q' (ix2 k n')) (hs : ∀ G : Fin 64, s (ix2 G n) = s' (ix2 G n')) :
    product A q s p n = product A' q' s' p' n' := by
  unfold product weight
  exact Finset.sum_congr rfl fun k _ => by rw [hA k, hq k, hs (grp k)]

end Cert.GroupScale

end
-- ==== Proof.KIPayload.lean ====
/-
  The body's value, read at an entry, at the ideal values.

  The value the body stores is the product of the left factor with the dequantized slab. Read at `(p, n)` at the ideal
  values — format changes the identity, the product into a zero accumulator a plain sum — it is
  `∑ k, a (p, k) · ((q (k, n) − 4) · s (k / 64, n))`: the product of `LibGroupScale` at width 512. In particular column
  `n` of it reads column `n` of the codes and of the scales and nothing else of them.
-/
import proofs.«153262_j83356725281468_1_alg».proof.Proof.Gen.KernelIdeal.Skeleton
import proofs.«153262_j83356725281468_1_alg».proof.Proof.LibDot
import proofs.«153262_j83356725281468_1_alg».proof.Proof.LibGroupScale

noncomputable section

namespace Cert.KernelIdeal.Payload

open Cert.KernelIdeal Cert.KernelIdeal.Gen
open Idealize.ShloMosaic Idealize.ShloMosaic.ValueIdx Cert.GroupScale

/-- The printed dimension record is the plain rows-by-columns one. -/
theorem record_plain : dot_S64x4096_S4096x512_S64x512_1_0_0_1_n_n = DotDims.plain 64 4096 512 := rfl

/-- The dequantized slab at `(k, n)`. -/
theorem slab_apply (q : Vec Ideal S4096x512 .i32) (s : Vec Ideal S64x512 .f32) (k : Fin 4096) (n : Fin 512) :
    (shapeCast S4096x512
        (mulf (shapeCast S64x64x512 (sitofp (F := Ideal) .f32 (subi q (broadcast S4096x512 4#32))) shapeCasts_S4096x512_S64x64x512)
          (broadcastTo S64x64x512 (shapeCast S64x1x512 s shapeCasts_S64x512_S64x1x512) broadcasts_S64x1x512_S64x64x512))
        shapeCasts_S64x64x512_S4096x512 : FVec Ideal S4096x512 .f32) (ix2 k n)
      = weight q s k n := by
  refine (merge_apply _ shapeCasts_S64x64x512_S4096x512 k n).trans ?_
  show (shapeCast S64x64x512 (sitofp (F := Ideal) .f32 (subi q (broadcast S4096x512 4#32))) shapeCasts_S4096x512_S64x64x512)
        (ix3 (grp k) (pos k) n)
      * (broadcastTo S64x64x512 (shapeCast S64x1x512 s shapeCasts_S64x512_S64x1x512) broadcasts_S64x1x512_S64x64x512)
        (ix3 (grp k) (pos k) n) = _
  rw [split_apply _ shapeCasts_S4096x512_S64x64x512, repeat_apply _ broadcasts_S64x1x512_S64x64x512 (by decide),
    unit_apply _ shapeCasts_S64x512_S64x1x512, row_grp_pos]
  rfl

/-- The body's value at `(p, n)`. -/
theorem pay_apply (a : Vec Ideal S64x4096 .f32) (q : Vec Ideal S4096x512 .i32) (s : Vec Ideal S64x512 .f32)
    (p : Fin 64) (n : Fin 512) : k0_pay1 (F := Ideal) a q s (ix2 p n) = product a q s p n := by
  unfold k0_pay1
  refine (Cert.GNN.matmul_plain_zero_apply none (truncf .bf16 a bitsLt_bf16_f32) _ p n).trans ?_
  unfold product
  refine Finset.sum_congr rfl fun k _ => ?_
  exact congrArg (a (ix2 p k) * ·) (slab_apply q s k n)

end Cert.KernelIdeal.Payload

end
-- ==== Proof.KIRun.lean ====
/-
  The idealized kernel's run.

  The grid has 22 points; point `t` works on columns `512 t … 512 t + 511` of the codes, of the scales and of the
  result, and on the whole left factor. 11008 = 21 · 512 + 256, so at the last point only the first 256 columns of
  each slab lie inside the arrays: the fetches fill that leading part of the staging buffers and leave the rest at
  values nothing names, and the write-back writes only that leading part. What makes this harmless is that column `n`
  of the body's value reads column `n` of the two slabs and no other (`Payload.pay_apply`): on the columns that are
  written back, the value does not depend on what the unnamed part holds.

  The proof data name, after the body at point `t`: the left factor's buffer at the whole left factor; the two slabs'
  buffers at their blocks, filled out with zeros past the arrays' end; the result's buffer at the body's value of those.
  The body obligation then asks of the three cut windows only their leading parts, and the library's frame run gives
  every array after the run.
-/
import proofs.«153262_j83356725281468_1_alg».proof.Proof.KIBody
import proofs.«153262_j83356725281468_1_alg».proof.Proof.KIPayload

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Cert.GroupScale

local notation "𝕄" => MT nD τ sig Unit (Elt Ideal) ℕ (UR sig nD τ) ℕ

variable (m : (ℓ : Loc nD τ sig) → Buf (Elt Ideal) ℓ) (ρ : Dev nD → PrngReg)

/-! ## The cut, over the grid -/

/-- At every point the slabs are cut on the column axis only, and all three alike. -/
theorem cut_sizes : ∀ t : Fin grid0.N,
    win0_1.xsize (grid0.coords t) 0 = 4096 ∧ win0_2.xsize (grid0.coords t) 0 = 64
      ∧ win0_1.xsize (grid0.coords t) 1 = win0_3.xsize (grid0.coords t) 1
      ∧ win0_2.xsize (grid0.coords t) 1 = win0_3.xsize (grid0.coords t) 1 := by decide +kernel

/-- On the part a transfer moves, a filled-out block does not depend on what it was filled out with. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- On the columns written back at point `t`, the body's value does not depend on what the slabs' buffers hold past
    the arrays' end. -/
theorem pay_indep (t : Fin cfg0.N) (a : Vec Ideal S64x4096 .f32)
    (g1 : (win0_1.xblock (grid0.coords t)).Idx → BitVec 32) (g2 : (win0_2.xblock (grid0.coords t)).Idx → EReal)
    (d1 d1' : S4096x512.Idx → BitVec 32) (d2 d2' : S64x512.Idx → EReal) (j : S64x512.Idx)
    (hj : win0_3.moved (grid0.coords t) j = true) :
    k0_pay1 (F := Ideal) a (win0_1.fill (grid0.coords t) d1 g1) (win0_2.fill (grid0.coords t) d2 g2) j
      = k0_pay1 (F := Ideal) a (win0_1.fill (grid0.coords t) d1' g1) (win0_2.fill (grid0.coords t) d2' g2) j := by
  obtain ⟨p, n, rfl⟩ : ∃ (p : Fin 64) (n : Fin 512), j = ix2 p n := ⟨j 0, j 1, eq_ix2 j⟩
  have hn : n.val < win0_3.xsize (grid0.coords t) 1 := (win0_3.moved_iff _ _).mp hj 1
  obtain ⟨h10, h20, h11, h21⟩ := cut_sizes t
  refine (pay_apply _ _ _ p n).trans (Eq.trans ?_ (pay_apply _ _ _ p n).symm)
  refine product_congr _ _ _ _ _ _ p p n n (fun _ => rfl) (fun k => ?_) (fun G => ?_)
  · exact fill_eq_of_moved win0_1 _ d1 d1' g1 _ ((win0_1.moved_iff _ _).mpr fun a => match a with
      | ⟨0, _⟩ => by show k.val < win0_1.xsize (grid0.coords t) 0; rw [h10]; exact k.isLt
      | ⟨1, _⟩ => by show n.val < win0_1.xsize (grid0.coords t) 1; rw [h11]; exact hn)
  · exact fill_eq_of_moved win0_2 _ d2 d2' g2 _ ((win0_2.moved_iff _ _).mpr fun a => match a with
      | ⟨0, _⟩ => by show G.val < win0_2.xsize (grid0.coords t) 0; rw [h20]; exact G.isLt
      | ⟨1, _⟩ => by show n.val < win0_2.xsize (grid0.coords t) 1; rw [h21]; exact hn)

/-! ## The proof data -/

/-- The slabs' blocks at point `t`, filled out with zeros past the arrays' end. -/
def qfill (c : Dev nD) (t : Fin cfg0.N) : Vec Ideal S4096x512 .i32 :=
  win0_1.fill (grid0.coords t) (fun _ => 0#32) (iblk m c 1 t)
def sfill (c : Dev nD) (t : Fin cfg0.N) : Vec Ideal S64x512 .f32 :=
  win0_2.fill (grid0.coords t) (fun _ => (0 : EReal)) (iblk m c 2 t)
/-- The body's value of them. -/
def oval (c : Dev nD) (t : Fin cfg0.N) : Vec Ideal S64x512 .f32 :=
  k0_pay1 (F := Ideal) (iblk m c 0 t) (qfill m c t) (sfill m c t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => qfill m c t
    | ⟨2, _⟩ => sfill m c t
    | ⟨3, _⟩ => oval m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = qfill m c t := by dsimp only [dats]
theorem after2 (c : Dev nD) (t : Fin cfg0.N) : (dats m 0 c).after 2 t = sfill m c t := by dsimp only [dats]
theorem after3 (c : Dev nD) (t : Fin cfg0.N) : (dats m 0 c).after 3 t = oval m c t := by dsimp only [dats]

/-- What the body finds: the whole left factor; -/
theorem before0 (c : Dev nD) (t : Fin cfg0.N) (d) : (dats m 0 c).before 0 t d = iblk m c 0 t :=
  before0_0_of m (dats m 0 c) (A_eq m c 0) (after0 m c) t d
/-- the slabs' buffers just fetched, their blocks on the part inside the arrays and `d` elsewhere; -/
theorem before1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]; try rfl
theorem before2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]; try rfl
/-- the result's buffer at anything (it was written back at the point before). -/
theorem before3 (c : Dev nD) (t : Fin cfg0.N) (d) : (dats m 0 c).before 3 t d = d :=
  (dats m 0 c).before_out_reset 3 rfl t
    ((Nat.eq_zero_or_pos t.val).imp id fun hp => ⟨Nat.pos_iff_ne_zero.mp hp, flush0_3 _⟩) d

/-! ## The body obligation -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: of each cut window only the part its transfers move is stated. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  -- the slabs' buffers hold their blocks on the moved part, whatever filled them out; the result's holds the body's
  -- value of them, which on the moved part is the value of the zero-filled blocks (`pay_indep`)
  have hq : win0_1.cut (grid0.coords t) (qfill m c t) = iblk m c 1 t := win0_1.cut_fill _ _ _
  have hs : win0_2.cut (grid0.coords t) (sfill m c t) = iblk m c 2 t := win0_2.cut_fill _ _ _
  have ho : win0_3.fill (grid0.coords t)
        (stored (iblk m c 0 t) (win0_1.fill (grid0.coords t) d1 (iblk m c 1 t)) (win0_2.fill (grid0.coords t) d2 (iblk m c 2 t)))
        (win0_3.cut (grid0.coords t) (oval m c t))
      = stored (iblk m c 0 t) (win0_1.fill (grid0.coords t) d1 (iblk m c 1 t)) (win0_2.fill (grid0.coords t) d2 (iblk m c 2 t)) :=
    win0_3.fill_congr_cut _ (funext fun y => by
      show stored (iblk m c 0 t) (win0_1.fill (grid0.coords t) d1 (iblk m c 1 t)) (win0_2.fill (grid0.coords t) d2 (iblk m c 2 t))
          (win0_3.xinj (grid0.coords t) y) = oval m c t (win0_3.xinj (grid0.coords t) y)
      rw [stored_eq]
      exact pay_indep t (iblk m c 0 t) (iblk m c 1 t) (iblk m c 2 t) d1 (fun _ => 0#32) d2 (fun _ => (0 : EReal)) _
        (win0_3.moved_xinj _ y))
  isplitl [H0]; · iexact H0
  isplitl [H1]; · iexists d1; rw [hq]; iexact H1
  isplitl [H2]; · iexists d2; rw [hs]; iexact H2
  iexists _; rw [ho]; iexact H3

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data: an input at its launch contents, the result at its launch contents
    overwritten, point by point, by the moved part of what the body left. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The three argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Run

end
-- ==== Proof.KIValue.lean ====
/-
  What the result array holds after the idealized kernel's run.

  Point `t` writes back columns `512 t … 512 t + 511` of the result, cut at column 11008. On those columns what the
  body left is the product of the whole left factor with the weight of the SAME columns of the codes and scales — the
  blocks the point fetched sit at the same column offset `512 t` in their arrays — so what is written back is block `t`
  of ONE array, the product with the dequantized weight (`GroupScale.productArr` at width 11008). Column `n` lies in
  the block of point `n / 512`, so the blocks cover the array and it ends holding that product.
-/
import proofs.«153262_j83356725281468_1_alg».proof.Proof.KIRun

set_option maxRecDepth 16384

noncomputable section

namespace Cert.KernelIdeal.Final

open Cert.KernelIdeal Cert.KernelIdeal.Gen Cert.KernelIdeal.Body Cert.KernelIdeal.Payload Cert.KernelIdeal.Run
open Idealize.ShloMosaic Idealize.ShloMosaic.TcCoe
open Idealize.SL Idealize.SL.Sem
open Idealize.ShloMosaic.Pipeline (Dat Cfg Window)
open Idealize.ShloMosaic.ValueIdx Cert.GroupScale

variable (m : (ℓ : Loc nD τ sig) → Buf (Elt Ideal) ℓ) (ρ : Dev nD → PrngReg)

/-- Where each window's block sits at point `t`, and how much of the result's block is written back. -/
theorem place : ∀ t : Fin grid0.N,
    win0_0.index t 0 = 0 ∧ win0_0.index t 1 = 0
      ∧ win0_1.index t 0 = 0 ∧ win0_1.index t 1 = t.val
      ∧ win0_2.index t 0 = 0 ∧ win0_2.index t 1 = t.val
      ∧ win0_3.index t 0 = 0 ∧ win0_3.index t 1 = t.val
      ∧ win0_3.xsize (grid0.coords t) 0 = 64
      ∧ win0_3.xsize (grid0.coords t) 1 = min 512 (11008 - t.val * 512) := by decide +kernel

/-- The left factor's block is the whole left factor. -/
theorem ablk_apply (c : Dev nD) (t : Fin cfg0.N) (p : Fin 64) (k : Fin 4096) :
    iblk m c 0 t (ix2 p k) = V m c main_arg0 (ix2 p k) := by
  obtain ⟨e00, e01, -⟩ := place t
  show V m c main_arg0 (((cfg0.win 0).blk t).view.emb (ix2 p k)) = V m c main_arg0 (ix2 p k)
  refine congrArg _ (funext fun a => Fin.ext ?_)
  match a with
  | ⟨0, _⟩ => show win0_0.index t 0 * 64 + 1 * p.val = p.val; rw [e00]; omega
  | ⟨1, _⟩ => show win0_0.index t 1 * 4096 + 1 * k.val = k.val; rw [e01]; omega

/-- A column of the codes' buffer that the fetch filled holds column `512 t + n` of the codes. -/
theorem qblk_apply (c : Dev nD) (t : Fin cfg0.N) (d : S4096x512.Idx → BitVec 32) (k : Fin 4096) (n : Fin 512)
    (hn : n.val < win0_3.xsize (grid0.coords t) 1) (n' : Fin 11008) (hn' : n'.val = t.val * 512 + n.val) :
    win0_1.fill (grid0.coords t) d (iblk m c 1 t) (ix2 k n) = V m c main_arg1 (ix2 k n') := by
  obtain ⟨h10, h20, h11, h21⟩ := cut_sizes t
  obtain ⟨-, -, e10, e11, -⟩ := place t
  have hmv : win0_1.moved (grid0.coords t) (ix2 k n) = true := (win0_1.moved_iff _ _).mpr fun a => match a with
    | ⟨0, _⟩ => by show k.val < win0_1.xsize (grid0.coords t) 0; rw [h10]; exact k.isLt
    | ⟨1, _⟩ => by show n.val < win0_1.xsize (grid0.coords t) 1; rw [h11]; exact hn
  unfold Window.fill
  rw [dif_pos hmv]
  show V m c main_arg1 (((cfg0.win 1).blk t).view.emb _) = V m c main_arg1 (ix2 k n')
  refine congrArg _ (funext fun a => Fin.ext ?_)
  match a with
  | ⟨0, _⟩ => show win0_1.index t 0 * 4096 + 1 * k.val = k.val; rw [e10]; omega
  | ⟨1, _⟩ => show win0_1.index t 1 * 512 + 1 * n.val = n'.val; rw [e11, hn']; omega

/-- The same of the scales. -/
theorem sblk_apply (c : Dev nD) (t : Fin cfg0.N) (d : S64x512.Idx → EReal) (G : Fin 64) (n : Fin 512)
    (hn : n.val < win0_3.xsize (grid0.coords t) 1) (n' : Fin 11008) (hn' : n'.val = t.val * 512 + n.val) :
    win0_2.fill (grid0.coords t) d (iblk m c 2 t) (ix2 G n) = V m c main_arg2 (ix2 G n') := by
  obtain ⟨h10, h20, h11, h21⟩ := cut_sizes t
  obtain ⟨-, -, -, -, e20, e21, -⟩ := place t
  have hmv : win0_2.moved (grid0.coords t) (ix2 G n) = true := (win0_2.moved_iff _ _).mpr fun a => match a with
    | ⟨0, _⟩ => by show G.val < win0_2.xsize (grid0.coords t) 0; rw [h20]; exact G.isLt
    | ⟨1, _⟩ => by show n.val < win0_2.xsize (grid0.coords t) 1; rw [h21]; exact hn
  unfold Window.fill
  rw [dif_pos hmv]
  show V m c main_arg2 (((cfg0.win 2).blk t).view.emb _) = V m c main_arg2 (ix2 G n')
  refine congrArg _ (funext fun a => Fin.ext ?_)
  match a with
  | ⟨0, _⟩ => show win0_2.index t 0 * 64 + 1 * G.val = G.val; rw [e20]; omega
  | ⟨1, _⟩ => show win0_2.index t 1 * 512 + 1 * n.val = n'.val; rw [e21, hn']; omega

/-- The product array of the arguments as the region finds them. -/
abbrev result (c : Dev nD) : S64x11008.Idx → EReal :=
  productArr (V m c main_arg0) (V m c main_arg1) (V m c main_arg2)

/-- WHAT POINT `t` WRITES BACK is block `t` of the product array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after3]
  funext y
  obtain ⟨-, -, -, -, -, -, e30, e31, x30, x31⟩ := place t
  have hy0 : (y 0).val < win0_3.xsize (grid0.coords t) 0 := (y 0).isLt
  have hy1 : (y 1).val < win0_3.xsize (grid0.coords t) 1 := (y 1).isLt
  have ht : t.val < 22 := (show t.val < grid0.N from t.isLt).trans_eq N_0
  have b0 : (y 0).val < 64 := by rw [x30] at hy0; exact hy0
  have b1 : (y 1).val < 512 := by rw [x31] at hy1; omega
  have b1' : t.val * 512 + (y 1).val < 11008 := by rw [x31] at hy1; omega
  -- the entry of the staging buffer, and the entry of the array it is written to
  have hin : win0_3.xinj (grid0.coords t) y = ix2 (⟨(y 0).val, b0⟩ : Fin 64) (⟨(y 1).val, b1⟩ : Fin 512) :=
    funext fun a => Fin.ext (by match a with | ⟨0, _⟩ => rfl | ⟨1, _⟩ => rfl)
  have hout : ((cfg0.win 3).blk t).view.emb y = ix2 (⟨(y 0).val, b0⟩ : Fin 64) (⟨t.val * 512 + (y 1).val, b1'⟩ : Fin 11008) :=
    funext fun a => Fin.ext (by
      match a with
      | ⟨0, _⟩ => show win0_3.index t 0 * 64 + 1 * (y 0).val = (y 0).val; rw [e30]; omega
      | ⟨1, _⟩ => show win0_3.index t 1 * 512 + 1 * (y 1).val = t.val * 512 + (y 1).val; rw [e31]; omega)
  show oval m c t (win0_3.xinj (grid0.coords t) y) = result m c (((cfg0.win 3).blk t).view.emb y)
  rw [hin, hout]
  refine (pay_apply _ _ _ _ _).trans ?_
  show _ = product (V m c main_arg0) (V m c main_arg1) (V m c main_arg2) _ _
  exact product_congr _ _ _ _ _ _ _ _ _ _ (fun k => ablk_apply m c t _ k)
    (fun k => qblk_apply m c t _ k _ (by exact hy1) _ rfl)
    (fun G => sblk_apply m c t _ G _ (by exact hy1) _ rfl)

/-- An index of the array is in point `t`'s block iff each coordinate is in the written part's range on its axis. -/
theorem mem_blk (t : Fin cfg0.N) (i : S64x11008.Idx) :
    i ∈ ((cfg0.win 3).blk t).view.set ↔ ∀ a : Fin 2, win0_3.index t a * S64x512.size a ≤ (i a).val
      ∧ (i a).val < win0_3.index t a * S64x512.size a + win0_3.xsize (grid0.coords t) a := by
  show i ∈ ((View.whole main_v0).slice (win0_3.rect t)).set ↔ _
  rw [View.set_slice_whole, Rect.mem_set_unit]
  exact Iff.rfl

/-- Column `n` is written back by point `n / 512`. -/
theorem cover (i : S64x11008.Idx) : ∃ t : Fin cfg0.N, (cfg0.win 3).flush t = true ∧ i ∈ ((cfg0.win 3).blk t).view.set := by
  have h0 : (i 0).val < 64 := (i 0).isLt
  have h1 : (i 1).val < 11008 := (i 1).isLt
  have hN : cfg0.N = 22 := N_0
  have hlt : (i 1).val / 512 < cfg0.N := by rw [hN]; omega
  refine ⟨⟨(i 1).val / 512, hlt⟩, flush0_3 _, (mem_blk _ i).mpr fun a => ?_⟩
  obtain ⟨-, -, -, -, -, -, e30, e31, x30, x31⟩ := place ⟨(i 1).val / 512, hlt⟩
  match a with
  | ⟨0, _⟩ =>
    show win0_3.index ⟨(i 1).val / 512, hlt⟩ 0 * 64 ≤ (i 0).val
      ∧ (i 0).val < win0_3.index ⟨(i 1).val / 512, hlt⟩ 0 * 64 + win0_3.xsize (grid0.coords ⟨(i 1).val / 512, hlt⟩) 0
    rw [e30, x30]; omega
  | ⟨1, _⟩ =>
    show win0_3.index ⟨(i 1).val / 512, hlt⟩ 1 * 512 ≤ (i 1).val
      ∧ (i 1).val < win0_3.index ⟨(i 1).val / 512, hlt⟩ 1 * 512 + win0_3.xsize (grid0.coords ⟨(i 1).val / 512, hlt⟩) 1
    rw [e31, x31]
    show (i 1).val / 512 * 512 ≤ (i 1).val ∧ (i 1).val < (i 1).val / 512 * 512 + min 512 (11008 - (i 1).val / 512 * 512)
    omega

/-- THE RESULT ARRAY after the run: the product of the left factor with the dequantized weight. -/
theorem final (c : Dev nD) : (dats m 0 c).arrAt 3 cfg0.N = result m c :=
  (dats m 0 c).arrAt_eq_of_cover 3 _ (fun t _ => flushed_eq m c t) cover

/-- The run, read: the result array at the product array of the launch contents, the arguments unchanged. -/
theorem run : θ_run defs (onTc (τ := τ) (main (F := Ideal))) ⟨m, fun _ => 0, ρ⟩ fun r => ∀ c : Dev nD,
      r.2.mem ((c.tc : Thread nD τ).loc main_v0)
        = productArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RefValue.lean ====
/-
  The reference's result is the product with the dequantized weight.

  The reference subtracts 4 from every code, reads the difference as a real, cuts the `4096 × 11008` array into 64
  groups of 64 rows, multiplies each group by its row of scales (broadcast along the group), puts the groups back and
  multiplies the left factor by the result. At the ideal values, entry `(p, n)` of that is
  `∑ k, A (p, k) · ((q (k, n) − 4) · s (k / 64, n))`: `GroupScale.productArr` at width 11008.
-/
import proofs.«153262_j83356725281468_1_alg».proof.Proof.Gen.ReferenceIdeal.Run
import proofs.«153262_j83356725281468_1_alg».proof.Proof.LibDot
import proofs.«153262_j83356725281468_1_alg».proof.Proof.LibGroupScale

noncomputable section

namespace Cert.ReferenceIdeal.RefValue

open Cert.ReferenceIdeal Cert.ReferenceIdeal.Gen
open Idealize.ShloMosaic Idealize.ShloMosaic.ValueIdx Cert.GroupScale

/-- The dequantized weight array at `(k, n)`. -/
theorem slab_apply (x1 : IVec S4096x11008 32) (x2 : FVec Ideal S64x11008 .f32) (k : Fin 4096) (n : Fin 11008) :
    (shapeCast S4096x11008
        (mulf (shapeCast S64x64x11008
            (sitofp (F := Ideal) .f32 (subi x1 (broadcastInDim S4096x11008 ![] bcast_S_S4096x11008 (constantI S_ 32 4#32))))
            shapeCasts_S4096x11008_S64x64x11008)
          (broadcastInDim S64x64x11008 ![0, 1, 2] bcast_S64x1x11008_S64x64x11008_0_1_2
            (broadcastInDim S64x1x11008 ![0, 2] bcast_S64x11008_S64x1x11008_0_2 x2)))
        shapeCasts_S64x64x11008_S4096x11008 : FVec Ideal S4096x11008 .f32) (ix2 k n)
      = weight x1 x2 k n := by
  refine (merge_apply _ shapeCasts_S64x64x11008_S4096x11008 k n).trans ?_
  show (shapeCast S64x64x11008
          (sitofp (F := Ideal) .f32 (subi x1 (broadcastInDim S4096x11008 ![] bcast_S_S4096x11008 (constantI S_ 32 4#32))))
          shapeCasts_S4096x11008_S64x64x11008) (ix3 (grp k) (pos k) n)
      * (broadcastInDim S64x64x11008 ![0, 1, 2] bcast_S64x1x11008_S64x64x11008_0_1_2
          (broadcastInDim S64x1x11008 ![0, 2] bcast_S64x11008_S64x1x11008_0_2 x2)) (ix3 (grp k) (pos k) n) = _
  rw [split_apply _ shapeCasts_S4096x11008_S64x64x11008,
    repeat_inDim_apply _ bcast_S64x1x11008_S64x64x11008_0_1_2 (by decide),
    unit_inDim_apply _ bcast_S64x11008_S64x1x11008_0_2 (by decide), row_grp_pos]
  rfl

/-- The reference run's result term, at the ideal values, is the product array of the arguments. -/
theorem result_eq (x0 : FVec Ideal S64x4096 .f32) (x1 : IVec S4096x11008 32) (x2 : FVec Ideal S64x11008 .f32) :
    Host.dotGeneral (F := Ideal) dot_S64x4096_S4096x11008_S64x11008_1_0_0_1_n_n none x0
        (shapeCast _ (mulf (shapeCast _ (sitofp .f32 (subi x1 (broadcastInDim S4096x11008 ![] bcast_S_S4096x11008 (constantI S_ 32 4#32)))) shapeCasts_S4096x11008_S64x64x11008)
          (broadcastInDim S64x64x11008 ![0, 1, 2] bcast_S64x1x11008_S64x64x11008_0_1_2 (broadcastInDim S64x1x11008 ![0, 2] bcast_S64x11008_S64x1x11008_0_2 x2))) shapeCasts_S64x64x11008_S4096x11008)
      = productArr x0 x1 x2 := by
  funext j
  obtain ⟨p, n, rfl⟩ : ∃ (p : Fin 64) (n : Fin 11008), j = ix2 p n := ⟨j 0, j 1, eq_ix2 j⟩
  refine (Cert.GNN.dotGeneral_plain_apply none _ x0 _ p n).trans ?_
  rw [productArr_apply]
  unfold product
  exact Finset.sum_congr rfl fun k _ => congrArg (x0 (ix2 p k) * ·) (slab_apply x1 x2 k n)

end Cert.ReferenceIdeal.RefValue

end
-- ==== Proof.lean ====
/-
  The certificate: a 3-bit grouped-dequantization product against its plain reference.

  Both programs compute `C = A · W` with `W (k, n) = (q (k, n) − 4) · s (k / 64, n)`: `A` is `64 × 4096`, the codes `q`
  are `4096 × 11008` integers, the scales `s` are `64 × 11008`, one row of scales per group of 64 consecutive rows of
  `q`. The kernel walks the columns in 22 tiles of 512 (the last one half outside the arrays), dequantizes a tile in
  place and multiplies; the reference dequantizes the whole array and multiplies once. Over the extended reals both
  results are, entry by entry, the same sum `∑ k, A (p, k) · W (k, n)` over the same index set, so no law of arithmetic
  beyond reading each side at an entry is needed, and the precondition is never opened.

  * The kernel's frame, as printed: nothing of the buffers' contents matters for it (`Kernel.Run.frame`).
  * The idealized kernel's run: the result array ends at the product array, the arguments unchanged
    (`KernelIdeal.Final.run`); its frame is that run with the result dropped.
  * The reference's run is its operations' composed term, which at the ideal values is the same product array
    (`ReferenceIdeal.RefValue.result_eq`).
  * The idealization rewrote nothing, so there is nothing to preserve.
-/
import proofs.«153262_j83356725281468_1_alg».proof.Defs
import proofs.«153262_j83356725281468_1_alg».proof.Proof.Gen.Kernel
import proofs.«153262_j83356725281468_1_alg».proof.Proof.Gen.KernelIdeal
import proofs.«153262_j83356725281468_1_alg».proof.Proof.Gen.ReferenceIdeal
import proofs.«153262_j83356725281468_1_alg».proof.Proof.Gen.ReferenceIdeal.Run
import proofs.«153262_j83356725281468_1_alg».proof.Proof.Gen.Pre_finite_inputs
import proofs.«153262_j83356725281468_1_alg».proof.Proof.KFrame
import proofs.«153262_j83356725281468_1_alg».proof.Proof.KIValue
import proofs.«153262_j83356725281468_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame (F := Bits) m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the product array of the (agreeing) arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
